-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16x1024 .f32) (main_arg5 : FVec F S1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x16 .f32) (main_arg2 : FVec F S16 .f32) (main_arg3 : FVec F S16 .f32) (main_arg4 : FVec F S16x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S32768x1024 : Shape := ⟨2, ![32768, 1024]⟩
abbrev S1024x1024 : Shape := ⟨2, ![1024, 1024]⟩
abbrev S1x16 : Shape := ⟨2, ![1, 16]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S16, .f32⟩
  | .local _ .vmem, ⟨4, _⟩ => ⟨S16, .f32⟩
  | .local _ .vmem, ⟨5, _⟩ => ⟨S16x1024, .f32⟩
  | .local _ .vmem, ⟨6, _⟩ => ⟨S1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S16x1024_S16x1024_0_0 : ∀ a, (![0, 0] : Fin 2 → Nat) a + S16x1024.size a ≤ S16x1024.size a
  h_S16x1024 : 0 < S16x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S32768x1024_S8x4096x1024 : S32768x1024.ShapeCasts S8x4096x1024
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S8x4096x16 : Shape := ⟨3, ![8, 4096, 16]⟩
abbrev S1x1x16 : Shape := ⟨3, ![1, 1, 16]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S8x4096x16, .f32⟩
  | .hbm, ⟨7, _⟩ => ⟨S1x1x16, .f32⟩
  | .hbm, ⟨8, _⟩ => ⟨S8x4096x16, .f32⟩
  | .hbm, ⟨9, _⟩ => ⟨S8x4096x16, .f32⟩
  | .hbm, ⟨10, _⟩ => ⟨S_, .f32⟩
  | .hbm, ⟨11, _⟩ => ⟨S8x4096x16, .f32⟩
  | .hbm, ⟨12, _⟩ => ⟨S8x4096x16, .f32⟩
  | .hbm, ⟨13, _⟩ => ⟨S1x1x16, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S8x4096x16_0_1_2 : S1x1x16.BroadcastsInDim S8x4096x16 (![0, 1, 2] : Fin 3 → Fin S8x4096x16.rank)
  bcast_S_S8x4096x16 : S_.BroadcastsInDim S8x4096x16 (![] : Fin 0 → Fin S8x4096x16.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x16_S8x4096x16_2_0_01_1_n_n_wf : DotDims.WF S8x4096x1024 S1024x16 S8x4096x16 [2] [0] [0, 1] [1] [] []
  dot_S8x4096x16_S16x1024_S8x4096x1024_2_0_01_1_n_n_wf : DotDims.WF S8x4096x16 S16x1024 S8x4096x1024 [2] [0] [0, 1] [1] [] []

variable [Facts₀]

def dot_S8x4096x1024_S1024x16_S8x4096x16_2_0_01_1_n_n : DotDims S8x4096x1024 S1024x16 S8x4096x16 where
  lhsContracting := [2]
  rhsContracting := [0]
  lhsNonContracting := [0, 1]
  rhsNonContracting := [1]
  lhsBatch := []
  rhsBatch := []
  wf := dot_S8x4096x1024_S1024x16_S8x4096x16_2_0_01_1_n_n_wf
def dot_S8x4096x16_S16x1024_S8x4096x1024_2_0_01_1_n_n : DotDims S8x4096x16 S16x1024 S8x4096x1024 where
  lhsContracting := [2]
  rhsContracting := [0]
  lhsNonContracting := [0, 1]
  rhsNonContracting := [1]
  lhsBatch := []
  rhsBatch := []
  wf := dot_S8x4096x16_S16x1024_S8x4096x1024_2_0_01_1_n_n_wf

class Facts : Prop extends Facts₀ where

variable [Facts]
-- ==== Proof.FfnSpec.lean ====
/-
  The function both programs compute, written once over plain index types.

  A token is one row of 1024 features.  Its sixteen hidden units are
    hidden q = cos (max (⟨row, W1[:, q]⟩ + b1 q) 0 + θ q),
  the rectified first layer shifted by the angle θ and passed through the cosine, and its
  output feature d is
    token d = (∑ q, hidden q · W2[q, d]) + b2 d.
  The result array holds `token` of row (b, s) of the input at index (b, s, d); the same array
  viewed as 32768 rows of 1024 features holds it at (b · 4096 + s, d).  The two layouts carry
  the same numbers because both enumerate the rows in row-major order.

  Nothing here is evaluated: the zero of the rectifier stays the f32 word both programs print.
-/
import Idealize.ShloMosaic.PureOps.Ideal
import Idealize.ShloMosaic.PureOps.Ideal.Laws
import Idealize.ShloMosaic.Lib.ValueIdx
import Idealize.ShloMosaic.Lib.Pipeline.Value

noncomputable section

namespace Cert.FfnSpec

open Idealize.ShloMosaic Idealize.ShloMosaic.ValueIdx

/-- Hidden unit `q` of a token: the cosine of the rectified affine form of the row, shifted by `θ q`. -/
def hidden (row : Fin 1024 → EReal) (W1 : (⟨2, ![1024, 16]⟩ : Shape).Idx → EReal)
    (b1 θ : (⟨1, ![16]⟩ : Shape).Idx → EReal) (q : Fin 16) : EReal :=
  Ideal.cos (max ((∑ k : Fin 1024, row k * W1 (ix2 k q)) + b1 (ix1 q)) (Ideal.ofBits .f32 0x00000000#32) + θ (ix1 q))

/-- Output feature `d` of a token: the hidden units against column `d` of `W2`, plus the bias. -/
def token (row : Fin 1024 → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal) (d : Fin 1024) : EReal :=
  (∑ q : Fin 16, hidden row W1 b1 θ q * W2 (ix2 q d)) + b2 (ix1 d)

/-- The result over [8, 4096, 1024]: at (b, s, d), feature `d` of the token in row (b, s). -/
def result (x : (⟨3, ![8, 4096, 1024]⟩ : Shape).Idx → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal) : (⟨3, ![8, 4096, 1024]⟩ : Shape).Idx → EReal :=
  fun i => token (fun k => x (ix3 (i 0) (i 1) k)) W1 b1 θ W2 b2 (i 2)

/-- The same over the flattened layout [32768, 1024]: at (r, d), feature `d` of the token in row `r`. -/
def rows (x2 : (⟨2, ![32768, 1024]⟩ : Shape).Idx → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal) : (⟨2, ![32768, 1024]⟩ : Shape).Idx → EReal :=
  fun i => token (fun k => x2 (ix2 (i 0) k)) W1 b1 θ W2 b2 (i 1)

/-- Flattening the batch and sequence axes of the input, computing row by row, and splitting the row axis
    again gives `result`: index (b, s, d) of the rank-3 array and index (b · 4096 + s, d) of the rank-2 one
    sit at the same row-major position, on the way in and on the way out. -/
theorem unflatten_rows (x : (⟨3, ![8, 4096, 1024]⟩ : Shape).Idx → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal)
    (hin : (⟨3, ![8, 4096, 1024]⟩ : Shape).ShapeCasts ⟨2, ![32768, 1024]⟩)
    (hout : (⟨2, ![32768, 1024]⟩ : Shape).ShapeCasts ⟨3, ![8, 4096, 1024]⟩) :
    shapeCast ⟨3, ![8, 4096, 1024]⟩ (rows (shapeCast ⟨2, ![32768, 1024]⟩ x hin) W1 b1 θ W2 b2) hout
      = result x W1 b1 θ W2 b2 := by
  funext i
  have h0 : (i 0).val < 8 := (i 0).isLt
  have h1 : (i 1).val < 4096 := (i 1).isLt
  have h2 : (i 2).val < 1024 := (i 2).isLt
  -- the row of the flattened array that index `i` falls in
  let r : Fin 32768 := ⟨(i 0).val * 4096 + (i 1).val, by omega⟩
  rw [shapeCast_apply _ hout i (ix2 r (i 2)) (by
    rw [Shape.rowMajor_val_two, Shape.rowMajor_val_three]
    show ((i 0).val * 4096 + (i 1).val) * 1024 + (i 2).val = ((i 0).val * 4096 + (i 1).val) * 1024 + (i 2).val
    rfl)]
  unfold rows result
  show token (fun k => shapeCast ⟨2, ![32768, 1024]⟩ x hin (ix2 r k)) W1 b1 θ W2 b2 (i 2) = _
  congr 1
  funext k
  exact shapeCast_apply x hin (ix2 r k) (ix3 (i 0) (i 1) k) (by
    rw [Shape.rowMajor_val_two, Shape.rowMajor_val_three]
    show ((i 0).val * 4096 + (i 1).val) * 1024 + k.val = ((i 0).val * 4096 + (i 1).val) * 1024 + k.val
    rfl)

end Cert.FfnSpec

end
-- ==== Proof.KernelPayload.lean ====
/-
  What the kernel body stores, read at one index of its 1024 × 1024 block.

  The body loads a block of 1024 rows, the two weight matrices, the two length-16 vectors and the output
  bias, and stores one value per (row p, feature d).  Read at (p, d) that value is `FfnSpec.token` of row p
  of the block: the first matrix product contracts the row against a column of `W1`, the bias is added along
  the row, the rectifier and the shifted cosine act entry by entry, and the second product contracts the
  sixteen hidden units against a column of `W2`.  The narrowings to bf16 in front of both products do nothing
  to an exact value, and both products start from a zero accumulator, so each is the plain sum of products.
-/
import proofs.«178795_j65481071407276_1_alg».proof.Proof.Gen.KernelIdeal.Skeleton
import proofs.«178795_j65481071407276_1_alg».proof.Proof.FfnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The first product: a block of rows against `W1` -/

/-- The left operand is read at the output's row … -/
theorem rowsW1_lhs_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
/-- … and at the contracted position; -/
theorem rowsW1_lhs_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
/-- the right operand at the contracted position … -/
theorem rowsW1_rhs_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
/-- … and at the output's column. -/
theorem rowsW1_rhs_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- Entry (p, q) of the first product, accumulated from zero: row p against column q. -/
theorem rowsW1_apply (a : FVec Ideal S1024x1024 .bf16) (b : FVec Ideal S1024x16 .bf16) (p : Fin 1024) (q : Fin 16) :
    matmul dot_S1024x1024_S1024x16_S1024x16_1_0_0_1_n_n none a b (constant (F := Ideal) S1024x16 .f32 0x00000000#32) (ix2 p q)
      = ∑ k : Fin 1024, a (ix2 p k) * b (ix2 k q) := by
  simp only [matmul]
  rw [Ideal.matmul_constant_zero_apply, ← Equiv.sum_comp (ValueIdx.contrEquiv1 dot_S1024x1024_S1024x16_S1024x16_1_0_0_1_n_n 1024 rfl rfl).symm]
  refine Finset.sum_congr rfl fun k _ => ?_
  have hk := ValueIdx.contrEquiv1_symm_val dot_S1024x1024_S1024x16_S1024x16_1_0_0_1_n_n 1024 rfl rfl k
  have el : dot_S1024x1024_S1024x16_S1024x16_1_0_0_1_n_n.lhsIdx (ix2 p q) ((ValueIdx.contrEquiv1 dot_S1024x1024_S1024x16_S1024x16_1_0_0_1_n_n 1024 rfl rfl).symm k) = ix2 p k := funext fun a => Fin.ext (by
    match a with
    | ⟨0, _⟩ => exact rowsW1_lhs_0 _ _
    | ⟨1, _⟩ => exact (rowsW1_lhs_1 _ _).trans hk)
  have er : dot_S1024x1024_S1024x16_S1024x16_1_0_0_1_n_n.rhsIdx (ix2 p q) ((ValueIdx.contrEquiv1 dot_S1024x1024_S1024x16_S1024x16_1_0_0_1_n_n 1024 rfl rfl).symm k) = ix2 k q := funext fun a => Fin.ext (by
    match a with
    | ⟨0, _⟩ => exact (rowsW1_rhs_0 _ _).trans hk
    | ⟨1, _⟩ => exact rowsW1_rhs_1 _ _)
  rw [el, er]

/-! ## The second product: the hidden units against `W2` -/

theorem hiddenW2_lhs_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem hiddenW2_lhs_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem hiddenW2_rhs_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem hiddenW2_rhs_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry (p, d) of the second product, accumulated from zero: the sixteen hidden units of row p against column d. -/
theorem hiddenW2_apply (a : FVec Ideal S1024x16 .bf16) (b : FVec Ideal S16x1024 .bf16) (p : Fin 1024) (d : Fin 1024) :
    matmul dot_S1024x16_S16x1024_S1024x1024_1_0_0_1_n_n none a b (constant (F := Ideal) S1024x1024 .f32 0x00000000#32) (ix2 p d)
      = ∑ q : Fin 16, a (ix2 p q) * b (ix2 q d) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p d) ((ValueIdx.contrEquiv1 dot_S1024x16_S16x1024_S1024x1024_1_0_0_1_n_n 16 rfl rfl).symm k) = ix2 p k := funext fun a => Fin.ext (by
    match a with
    | ⟨0, _⟩ => exact hiddenW2_lhs_0 _ _
    | ⟨1, _⟩ => exact (hiddenW2_lhs_1 _ _).trans hk)
  have er : dot_S1024x16_S16x1024_S1024x1024_1_0_0_1_n_n.rhsIdx (ix2 p d) ((ValueIdx.contrEquiv1 dot_S1024x16_S16x1024_S1024x1024_1_0_0_1_n_n 16 rfl rfl).symm k) = ix2 k d := funext fun a => Fin.ext (by
    match a with
    | ⟨0, _⟩ => exact (hiddenW2_rhs_0 _ _).trans hk
    | ⟨1, _⟩ => exact hiddenW2_rhs_1 _ _)
  rw [el, er]

/-! ## The stored value at (p, d) -/

/-- The body's one stored value, read at row p and feature d of the block, is `FfnSpec.token` of row p. -/
theorem stored_apply (x0 : Vec Ideal S1024x1024 .f32) (x1 : Vec Ideal S1024x16 .f32) (x2 x3 : Vec Ideal S16 .f32)
    (x4 : Vec Ideal S16x1024 .f32) (x5 : Vec Ideal S1024 .f32) (p d : Fin 1024) :
    k0_pay1 (F := Ideal) x0 x1 x2 x3 x4 x5 (ix2 p d)
      = FfnSpec.token (fun k => x0 (ix2 p k)) x1 x2 x3 x4 x5 d := by
  unfold k0_pay1
  rw [addf_apply, hiddenW2_apply, broadcastTo_1b_ab_apply, shapeCast_a_1a_apply]
  unfold FfnSpec.token
  refine congrArg (· + x5 (ix1 d)) (Finset.sum_congr rfl fun q _ => ?_)
  rw [truncf_apply, truncf_apply]
  refine congrArg (· * x4 (ix2 q d)) ?_
  show Ideal.cos ((addf (maximumf (addf _ _) _) _ : FVec Ideal S1024x16 .f32) (ix2 p q)) = _
  rw [addf_apply, maximumf_apply, addf_apply, rowsW1_apply, broadcast_apply,
    broadcastTo_1b_ab_apply, shapeCast_a_1a_apply, broadcastTo_1b_ab_apply, shapeCast_a_1a_apply]
  unfold FfnSpec.hidden
  simp only [truncf_apply, shapeCast_self]
  rfl

end Cert.KernelIdeal.Payload

end
-- ==== Proof.KernelValue.lean ====
/-
  From the blocks the kernel writes to the array it leaves, and through the two reshapes around the launch.

  The launch walks 32 grid points.  At point t it reads rows 1024·t … 1024·t + 1023 of the flattened input
  (all 1024 features of each) together with the whole of `W1`, `b1`, `θ`, `W2`, `b2`, and writes back the block
  of the same rows of the output.  By `Payload.stored_apply` the block written at point t is the restriction of
  `FfnSpec.rows` of the arrays to those rows; the 32 blocks tile the 32768 rows, so the output array ends as
  `FfnSpec.rows` everywhere.  The input array of the launch is the rank-3 input flattened, and the program's
  result is the output array split back into [8, 4096, 1024]; `FfnSpec.unflatten_rows` reads that composite
  as `FfnSpec.result`.
-/
import proofs.«178795_j65481071407276_1_alg».proof.Proof.Gen.KernelIdeal.Frame
import proofs.«178795_j65481071407276_1_alg».proof.Proof.KernelPayload
import proofs.«178795_j65481071407276_1_alg».proof.Proof.FfnSpec
import Idealize.ShloMosaic.Lib.Pipeline.Value
import Idealize.ShloMosaic.Lib.StableHlo.Run

set_option maxRecDepth 16384

noncomputable section

namespace Cert.KernelIdeal.RowsValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- Where each window sits at grid point t: the row windows (input 0, output 6) at block row t, every other
    window at its array's one block. -/
theorem block_positions : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 1) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- A block of rows whose entries are rows `1024·t + p` of an array `A`, with the small operands whole,
    stores at (p, d) what `FfnSpec.rows` holds at (1024·t + p, d). -/
theorem stored_rows (x0 : Vec Ideal S1024x1024 .f32) (x1 : Vec Ideal S1024x16 .f32) (x2 x3 : Vec Ideal S16 .f32)
    (x4 : Vec Ideal S16x1024 .f32) (x5 : Vec Ideal S1024 .f32) (A : S32768x1024.Idx → EReal)
    (W1 : Vec Ideal S1024x16 .f32) (b1 θ : Vec Ideal S16 .f32) (W2 : Vec Ideal S16x1024 .f32) (b2 : Vec Ideal S1024 .f32)
    (tv : Nat) (ht : tv < 32)
    (hA : ∀ (p k : Fin 1024), x0 (ix2 p k) = A (ix2 (⟨tv * 1024 + p.val, by omega⟩ : Fin 32768) k))
    (h1 : x1 = W1) (h2 : x2 = b1) (h3 : x3 = θ) (h4 : x4 = W2) (h5 : x5 = b2)
    (j : S1024x1024.Idx) (i : S32768x1024.Idx) (hi0 : (i 0).val = tv * 1024 + (j 0).val) (hi1 : (i 1).val = (j 1).val) :
    k0_pay1 (F := Ideal) x0 x1 x2 x3 x4 x5 j = FfnSpec.rows A W1 b1 θ W2 b2 i := by
  subst h1 h2 h3 h4 h5
  obtain ⟨p, d, rfl⟩ : ∃ (p : Fin 1024) (d : Fin 1024), j = ix2 p d := ⟨j 0, j 1, eq_ix2 j⟩
  rw [Payload.stored_apply]
  unfold FfnSpec.rows
  have e0 : i 0 = (⟨tv * 1024 + p.val, by omega⟩ : Fin 32768) := Fin.ext hi0
  have e1 : i 1 = d := Fin.ext hi1
  rw [e0, e1]
  congr 1
  funext k
  exact hA p k

/-- Window 0's block at point t holds rows 1024·t … of the flattened input. -/
theorem rows_block (c : Dev nD) (t : Fin cfg0.N) (ht : t.val < 32) (p k : Fin 1024) :
    (iblk m c 0 t : Vec Ideal S1024x1024 .f32) (ix2 p k)
      = V m c main_v0 (ix2 (⟨t.val * 1024 + p.val, by omega⟩ : Fin 32768) k) := by
  show V m c main_v0 (((cfg0.win 0).blk t).view.emb (ix2 p k)) = _
  refine congrArg _ (funext fun a => Fin.ext ?_)
  obtain ⟨e0, e1, -⟩ := block_positions t
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The small operands' windows hold their whole arrays at every point. -/
theorem whole_W1 (c : Dev nD) (t : Fin cfg0.N) : (iblk m c 1 t : Vec Ideal S1024x16 .f32) = V m c main_arg1 := by
  funext y
  show V m c main_arg1 (((cfg0.win 1).blk t).view.emb y) = V m c main_arg1 y
  refine congrArg _ (funext fun a => Fin.ext ?_)
  obtain ⟨-, -, -, -, e0, e1, -⟩ := block_positions t
  match a with
  | ⟨0, _⟩ => show win0_1.index t (0 : Fin 2) * 1024 + 1 * (y 0).val = (y 0).val; omega
  | ⟨1, _⟩ => show win0_1.index t (1 : Fin 2) * 16 + 1 * (y 1).val = (y 1).val; omega
theorem whole_b1 (c : Dev nD) (t : Fin cfg0.N) : (iblk m c 2 t : Vec Ideal S16 .f32) = V m c main_arg2 := by
  funext y
  show V m c main_arg2 (((cfg0.win 2).blk t).view.emb y) = V m c main_arg2 y
  refine congrArg _ (funext fun a => Fin.ext ?_)
  obtain ⟨-, -, -, -, -, -, e0, -⟩ := block_positions t
  match a with
  | ⟨0, _⟩ => show win0_2.index t (0 : Fin 1) * 16 + 1 * (y 0).val = (y 0).val; omega
theorem whole_theta (c : Dev nD) (t : Fin cfg0.N) : (iblk m c 3 t : Vec Ideal S16 .f32) = V m c main_arg3 := by
  funext y
  show V m c main_arg3 (((cfg0.win 3).blk t).view.emb y) = V m c main_arg3 y
  refine congrArg _ (funext fun a => Fin.ext ?_)
  obtain ⟨-, -, -, -, -, -, -, e0, -⟩ := block_positions t
  match a with
  | ⟨0, _⟩ => show win0_3.index t (0 : Fin 1) * 16 + 1 * (y 0).val = (y 0).val; omega
theorem whole_W2 (c : Dev nD) (t : Fin cfg0.N) : (iblk m c 4 t : Vec Ideal S16x1024 .f32) = V m c main_arg4 := by
  funext y
  show V m c main_arg4 (((cfg0.win 4).blk t).view.emb y) = V m c main_arg4 y
  refine congrArg _ (funext fun a => Fin.ext ?_)
  obtain ⟨-, -, -, -, -, -, -, -, e0, e1, -⟩ := block_positions t
  match a with
  | ⟨0, _⟩ => show win0_4.index t (0 : Fin 2) * 16 + 1 * (y 0).val = (y 0).val; omega
  | ⟨1, _⟩ => show win0_4.index t (1 : Fin 2) * 1024 + 1 * (y 1).val = (y 1).val; omega
theorem whole_b2 (c : Dev nD) (t : Fin cfg0.N) : (iblk m c 5 t : Vec Ideal S1024 .f32) = V m c main_arg5 := by
  funext y
  show V m c main_arg5 (((cfg0.win 5).blk t).view.emb y) = V m c main_arg5 y
  refine congrArg _ (funext fun a => Fin.ext ?_)
  obtain ⟨-, -, -, -, -, -, -, -, -, -, e0⟩ := block_positions t
  match a with
  | ⟨0, _⟩ => show win0_5.index t (0 : Fin 1) * 1024 + 1 * (y 0).val = (y 0).val; omega

/-- The array contents the launch runs over, with the small operands' names spelt out. -/
abbrev launched (c : Dev nD) : S32768x1024.Idx → EReal :=
  FfnSpec.rows (V m c main_v0) (V m c main_arg1) (V m c main_arg2) (V m c main_arg3) (V m c main_arg4) (V m c main_arg5)

/-- What point t writes back is block t of `FfnSpec.rows` of the arrays as the launch finds them. -/
theorem written_block (c : Dev nD) (t : Fin cfg0.N) :
    (dats m 0 c).flushed 6 t = ((cfg0.win 6).blk t).view.read (Elt Ideal) (launched m c) := by
  show (cfg0.win 6).cut (grid0.coords t) ((dats m 0 c).after 6 t) = _
  rw [after0_6]
  unfold out0_6
  rw [View.canon_unit_zero origin2]
  simp only [View.ld_unit_zero (S := S1024x1024) origin2, View.ld_unit_zero (S := S1024x16) origin2,
    View.ld_unit_zero (S := S16x1024) origin2, View.ld_unit_zero (S := S16) origin1, View.ld_unit_zero (S := S1024) origin1]
  funext j
  have ht : t.val < 32 := lt_of_lt_of_eq t.isLt N_0
  obtain ⟨-, -, e0, e1, -⟩ := block_positions t
  show k0_pay1 (F := Ideal) (iblk m c 0 t) (iblk m c 1 t) (iblk m c 2 t) (iblk m c 3 t) (iblk m c 4 t) (iblk m c 5 t) j
    = launched m c (((cfg0.win 6).blk t).view.emb j)
  exact stored_rows (iblk m c 0 t) (iblk m c 1 t) (iblk m c 2 t) (iblk m c 3 t) (iblk m c 4 t) (iblk m c 5 t)
    (V m c main_v0) (V m c main_arg1) (V m c main_arg2) (V m c main_arg3) (V m c main_arg4) (V m c main_arg5) t.val ht
    (rows_block m c t ht) (whole_W1 m c t) (whole_b1 m c t) (whole_theta m c t) (whole_W2 m c t) (whole_b2 m c t)
    j (((cfg0.win 6).blk t).view.emb j)
    (by show win0_6.index t (0 : Fin 2) * 1024 + 1 * (j 0).val = t.val * 1024 + (j 0).val; omega)
    (by show win0_6.index t (1 : Fin 2) * 1024 + 1 * (j 1).val = (j 1).val; omega)

/-- An index of the output array lies in point t's block iff each coordinate lies in the block's range. -/
theorem mem_out_block (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v1).slice (win0_6.rect t)).set ↔ _
  rw [View.set_slice_whole, Rect.mem_set_unit]
  exact Iff.rfl

/-- The 32 blocks tile the 32768 rows: row r lies in the block of point r / 1024. -/
theorem blocks_cover (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : (i 0).val / 1024 < cfg0.N := lt_of_lt_of_eq (by omega : (i 0).val / 1024 < 32) N_0.symm
  refine ⟨⟨(i 0).val / 1024, hN⟩, flush0_6 _, ?_⟩
  rw [mem_out_block]
  obtain ⟨-, -, e0, e1, -⟩ := block_positions ⟨(i 0).val / 1024, hN⟩
  have e0' : win0_6.index ⟨(i 0).val / 1024, hN⟩ (0 : Fin 2) = (i 0).val / 1024 := e0
  intro a
  match a with
  | ⟨0, _⟩ =>
    show win0_6.index ⟨(i 0).val / 1024, hN⟩ (0 : Fin 2) * 1024 ≤ (i 0).val
      ∧ (i 0).val < win0_6.index ⟨(i 0).val / 1024, hN⟩ (0 : Fin 2) * 1024 + 1024
    omega
  | ⟨1, _⟩ =>
    show win0_6.index ⟨(i 0).val / 1024, hN⟩ (1 : Fin 2) * 1024 ≤ (i 1).val
      ∧ (i 1).val < win0_6.index ⟨(i 0).val / 1024, hN⟩ (1 : Fin 2) * 1024 + 1024
    omega

/-- The output array after the launch is `FfnSpec.rows` of the arrays the launch ran over. -/
theorem output_array (c : Dev nD) : (dats m 0 c).arrAt 6 cfg0.N = launched m c :=
  (dats m 0 c).arrAt_eq_of_cover 6 (launched m c) (fun t _ => written_block m c t) blocks_cover

/-! ## The reshapes around the launch -/

/-- The launch's input array is the rank-3 input flattened to 32768 rows. -/
theorem flattened_input (c : Dev nD) :
    V m c main_v0 = shapeCast S32768x1024 (m ((c : Thread nD τ).loc main_arg0)) Facts₀.shapeCasts_S8x4096x1024_S32768x1024 := by
  show StableHlo.after hostOps0 (fun b => m (c, b)) (Proc.devRef .tc main_v0) = _
  after_results
  rfl

/-- The program's result is the launch's output array split back into [8, 4096, 1024]. -/
theorem split_output (c : Dev nD) :
    Pipeline.afterTail₀ cfgs (dats m) 0 (V0 m) [hostOps1] c main_v2
      = shapeCast S8x4096x1024 ((dats m 0 c).arrAt 6 cfg0.N) Facts₀.shapeCasts_S32768x1024_S8x4096x1024 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 6
  show (fun i => shapeCast S8x4096x1024 (Pipeline.withArrays spec0 c (V0 m c) (fun w => (dats m 0 c).arrAt w cfg0.N)
      (Proc.devRef .tc (Pipeline.arrRef spec0 6))) Facts₀.shapeCasts_S32768x1024_S8x4096x1024 i) = _
  rw [e]

/-! ## The program's result -/

/-- What the lines after the launch leave in the result buffer: `FfnSpec.result` of the argument arrays. -/
theorem result_value (c : Dev nD) :
    Pipeline.afterTail₀ cfgs (dats m) 0 (V0 m) [hostOps1] c main_v2
      = FfnSpec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [split_output, output_array]
  show shapeCast S8x4096x1024 (FfnSpec.rows (V m c main_v0) (V m c main_arg1) (V m c main_arg2) (V m c main_arg3)
    (V m c main_arg4) (V m c main_arg5)) _ = _
  rw [flattened_input, V_main_arg1, V_main_arg2, V_main_arg3, V_main_arg4, V_main_arg5]
  exact FfnSpec.unflatten_rows _ _ _ _ _ _ _ _

/-- Every weakly fair execution of the idealized kernel program terminates with the result buffer at
    `FfnSpec.result` of the argument arrays and the arguments unchanged. -/
theorem run : θ_run defs (onTc (τ := τ) (main (F := Ideal))) ⟨m, fun _ => 0, ρ⟩ fun r => ∀ c : Dev nD,
      r.2.mem ((c.tc : Thread nD τ).loc main_v2)
        = FfnSpec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v2 (Pipeline.mem_restRefs_of main_v2 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.RowsValue

end
-- ==== Proof.RefValue.lean ====
/-
  The reference's result, read one index at a time, is `FfnSpec.result`.

  The reference contracts the feature axis of the input against `W1`, adds `b1` along the last axis,
  rectifies, adds `θ`, takes the cosine, contracts the sixteen hidden units against `W2` and adds `b2`.
  Each stage reads its operands at an index that is computed from the output's index; composing those
  index maps, entry (b, s, d) depends on row (b, s) of the input only, and is `FfnSpec.token` of that row.
-/
import proofs.«178795_j65481071407276_1_alg».proof.Proof.Gen.ReferenceIdeal.Read
import proofs.«178795_j65481071407276_1_alg».proof.Proof.FfnSpec

noncomputable section

namespace Cert.ReferenceIdeal.RefValue

open Cert.ReferenceIdeal Cert.ReferenceIdeal.Read Idealize.ShloMosaic Idealize.ShloMosaic.ValueIdx

/-- Hidden unit q of row (b, s), as the reference's stages compute it. -/
theorem hidden_apply (x0 : (⟨S8x4096x1024, .f32⟩ : BufTy).Contents (Elt Ideal)) (x1 : (⟨S1024x16, .f32⟩ : BufTy).Contents (Elt Ideal))
    (x2 x3 : (⟨S16, .f32⟩ : BufTy).Contents (Elt Ideal)) (i : S8x4096x1024.Idx) (q : Fin 16) :
    val_main_v8 (F := Ideal) x0 x1 x2 x3 (lidx_main_v9 i q)
      = FfnSpec.hidden (fun k => x0 (ix3 (i 0) (i 1) k)) x1 x2 x3 q := by
  rw [val_main_v8_apply, val_main_v7_apply, val_main_v4_apply, val_main_v3_apply, val_main_v0_apply,
    val_main_v2_apply, val_main_v1_apply, val_main_call0_v0_apply, val_main_call0_cst_apply,
    val_main_v6_apply, val_main_v5_apply]
  have el (k : Fin 1024) : lidx_main_v0 (lidx_main_v9 i q) k = ix3 (i 0) (i 1) k :=
    funext fun a => Fin.ext (by match a with | ⟨0, _⟩ => rfl | ⟨1, _⟩ => rfl | ⟨2, _⟩ => rfl)
  have er (k : Fin 1024) : ridx_main_v0 (lidx_main_v9 i q) k = ix2 k q :=
    funext fun a => Fin.ext (by match a with | ⟨0, _⟩ => rfl | ⟨1, _⟩ => rfl)
  have e2 : idx_main_v1 (idx_main_v2 (lidx_main_v9 i q)) = ix1 q :=
    funext fun a => Fin.ext (by match a with | ⟨0, _⟩ => rfl)
  have e3 : idx_main_v5 (idx_main_v6 (lidx_main_v9 i q)) = ix1 q :=
    funext fun a => Fin.ext (by match a with | ⟨0, _⟩ => rfl)
  simp only [el, er, e2, e3]
  rfl

/-- The reference's last stage is `FfnSpec.result` of the arguments. -/
theorem reference_eq (x0 : (⟨S8x4096x1024, .f32⟩ : BufTy).Contents (Elt Ideal)) (x1 : (⟨S1024x16, .f32⟩ : BufTy).Contents (Elt Ideal))
    (x2 x3 : (⟨S16, .f32⟩ : BufTy).Contents (Elt Ideal)) (x4 : (⟨S16x1024, .f32⟩ : BufTy).Contents (Elt Ideal))
    (x5 : (⟨S1024, .f32⟩ : BufTy).Contents (Elt Ideal)) :
    val_main_v12 (F := Ideal) x0 x1 x2 x3 x4 x5 = FfnSpec.result x0 x1 x2 x3 x4 x5 := by
  funext i
  rw [val_main_v12_apply, val_main_v9_apply, val_main_v11_apply, val_main_v10_apply]
  have e5 : idx_main_v10 (idx_main_v11 i) = ix1 (i 2) :=
    funext fun a => Fin.ext (by match a with | ⟨0, _⟩ => rfl)
  have er (q : Fin 16) : ridx_main_v9 i q = ix2 q (i 2) :=
    funext fun a => Fin.ext (by match a with | ⟨0, _⟩ => rfl | ⟨1, _⟩ => rfl)
  rw [e5]
  unfold FfnSpec.result FfnSpec.token
  refine congrArg (· + x5 (ix1 (i 2))) (Finset.sum_congr rfl fun q _ => ?_)
  rw [er q, hidden_apply]
  rfl

end Cert.ReferenceIdeal.RefValue

end
-- ==== Proof.lean ====
/-
  The dense feed-forward block with a cosine nonlinearity, kernel against reference.

  Both programs map a token (a row x of 1024 features) to
      (∑ q, cos (max (⟨x, W1[:, q]⟩ + b1 q) 0 + θ q) · W2[q, d]) + b2 d        (d < 1024),
  over the 8 · 4096 tokens of the input.  The kernel flattens the input to 32768 rows, walks them in 32 blocks
  of 1024 rows with both matrix products taken on bf16 copies of their operands, and splits the rows back
  into [8, 4096, 1024]; the reference contracts the rank-3 input directly.  Over the extended reals a change of
  float format is the identity and both kinds of product are the same finite sums in the same order, so the
  two results agree entry by entry with no algebraic law needed beyond reading each side at an index:
  `FfnSpec` names the common function, `KernelIdeal.RowsValue.run` reads the kernel's run as that function
  (`Payload.stored_apply` for one block entry, the 32 blocks tiling the rows, the two reshapes composed), and
  `ReferenceIdeal.RefValue.reference_eq` reads the reference's last stage as the same function.
  The three frames are the launches' and the host run's own termination-and-unchanged-arguments facts; the
  idealization rewrote nothing, so `preserves` has nothing to state.
-/
import proofs.«178795_j65481071407276_1_alg».proof.Defs
import proofs.«178795_j65481071407276_1_alg».proof.Proof.Gen.Kernel
import proofs.«178795_j65481071407276_1_alg».proof.Proof.Gen.Kernel.Skeleton
import proofs.«178795_j65481071407276_1_alg».proof.Proof.Gen.Kernel.Launch
import proofs.«178795_j65481071407276_1_alg».proof.Proof.Gen.Kernel.Points
import proofs.«178795_j65481071407276_1_alg».proof.Proof.Gen.Kernel.Frame
import proofs.«178795_j65481071407276_1_alg».proof.Proof.Gen.KernelIdeal
import proofs.«178795_j65481071407276_1_alg».proof.Proof.Gen.KernelIdeal.Skeleton
import proofs.«178795_j65481071407276_1_alg».proof.Proof.Gen.KernelIdeal.Launch
import proofs.«178795_j65481071407276_1_alg».proof.Proof.Gen.KernelIdeal.Points
import proofs.«178795_j65481071407276_1_alg».proof.Proof.Gen.KernelIdeal.Frame
import proofs.«178795_j65481071407276_1_alg».proof.Proof.Gen.ReferenceIdeal
import proofs.«178795_j65481071407276_1_alg».proof.Proof.Gen.Pre_finite_inputs
import proofs.«178795_j65481071407276_1_alg».proof.Proof.Gen.ReferenceIdeal.Run
import proofs.«178795_j65481071407276_1_alg».proof.Proof.Gen.ReferenceIdeal.Read
import proofs.«178795_j65481071407276_1_alg».proof.Proof.FfnSpec
import proofs.«178795_j65481071407276_1_alg».proof.Proof.KernelValue
import proofs.«178795_j65481071407276_1_alg».proof.Proof.RefValue
import Idealize.ShloMosaic.Adequacy
import Idealize.ShloMosaic.Init

noncomputable section

namespace Cert.Proof

open Idealize.ShloMosaic Idealize.SL.Sem

/-- The word-level kernel terminates and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `FfnSpec.result` of those arguments
    in their result buffers. -/
theorem algebraic : Cert.algebraic_KernelIdeal_ReferenceIdeal := by
  intro m ρ m' ρ' _ hagree
  refine ⟨_, Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq]
  obtain ⟨a0, a1, a2, a3, a4, a5⟩ := hagree c
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
